-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S1024x512 .f32) (main_arg5 : FVec F S1024 .f32) (main_arg6 : FVec F S512x512 .f32) (main_arg7 : FVec F S512 .f32) (main_arg8 : FVec F S512x512 .f32) (main_arg9 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x512 .f32) (main_arg2 : FVec F S1024x512 .f32) (main_arg3 : FVec F S1024 .f32) (main_arg4 : FVec F S1024x512 .f32) (main_arg5 : FVec F S1024 .f32) (main_arg6 : FVec F S512x512 .f32) (main_arg7 : FVec F S512 .f32) (main_arg8 : FVec F S512x512 .f32) (main_arg9 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S1x1024 : Shape := ⟨2, ![1, 1024]⟩
abbrev S1x512 : Shape := ⟨2, ![1, 512]⟩
abbrev S512x1024 : Shape := ⟨2, ![512, 1024]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S1x1024, .f32⟩
  | .hbm, ⟨11, _⟩ => ⟨S1x1024, .f32⟩
  | .hbm, ⟨12, _⟩ => ⟨S1x512, .f32⟩
  | .hbm, ⟨13, _⟩ => ⟨S1x512, .f32⟩
  | .hbm, ⟨14, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1x1024, .f32⟩
  | .local _ .vmem, ⟨6, _⟩ => ⟨S1024x512, .f32⟩
  | .local _ .vmem, ⟨7, _⟩ => ⟨S1x1024, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1024_S1x1024 : S1024.ShapeCasts S1x1024
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  slices_S512x1024_o0_0_S512x512 : S512x1024.Slices ![0, 0] S512x512
  slices_S512x1024_o0_512_S512x512 : S512x1024.Slices ![0, 512] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  broadcasts_S512x1_S512x512 : S512x1.Broadcasts S512x512
  dot_S512x512_S1024x512_S512x1024_1_1_0_0_n_n_wf : DotDims.WF S512x512 S1024x512 S512x1024 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .f32 = 32 ∨ (Rect.block (s := S1024x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S16384x512.size a
  hwx0_10 : ∀ i : grid0.Coords, EltTy.bits .f32 = 32 ∨ (Rect.block (s := S16384x512) S512x512.size (cc0_transform_10 i) (hinb0_10 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S512x1024 : Shape := ⟨2, ![512, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 142
  | .vmem => 0
  | .smem => 0
  | _ => 0

abbrev hbmTy0_0 (i : Nat) : BufTy := match i % 128 with
  | 0 => ⟨S16384x512, .f32⟩
  | 1 => ⟨S16384x512, .f32⟩
  | 2 => ⟨S1024x512, .f32⟩
  | 3 => ⟨S1024, .f32⟩
  | 4 => ⟨S1024x512, .f32⟩
  | 5 => ⟨S1024, .f32⟩
  | 6 => ⟨S512x512, .f32⟩
  | 7 => ⟨S512, .f32⟩
  | 8 => ⟨S512x512, .f32⟩
  | 9 => ⟨S512, .f32⟩
  | 10 => ⟨S512x1024, .f32⟩
  | 11 => ⟨S16384x1024, .f32⟩
  | 12 => ⟨S1x1024, .f32⟩
  | 13 => ⟨S16384x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x1024, .f32⟩
  | 22 => ⟨S16384x1024, .f32⟩
  | 23 => ⟨S16384x1024, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S16384x1024, .f32⟩
  | 31 => ⟨S16384x1024, .f32⟩
  | 32 => ⟨S_, .f32⟩
  | 33 => ⟨S16384x1, .f32⟩
  | 34 => ⟨S16384x1, .f32⟩
  | 35 => ⟨S16384x1, .f32⟩
  | 36 => ⟨S16384x1024, .f32⟩
  | 37 => ⟨S16384x1024, .f32⟩
  | 38 => ⟨S512x1024, .f32⟩
  | 39 => ⟨S16384x1024, .f32⟩
  | 40 => ⟨S1x1024, .f32⟩
  | 41 => ⟨S16384x1024, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S16384x1024, .f32⟩
  | 50 => ⟨S16384x1024, .f32⟩
  | 51 => ⟨S16384x1024, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S16384x1024, .f32⟩
  | 59 => ⟨S16384x1024, .f32⟩
  | 60 => ⟨S_, .f32⟩
  | 61 => ⟨S16384x1, .f32⟩
  | 62 => ⟨S16384x1, .f32⟩
  | 63 => ⟨S16384x1, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S_, .f32⟩
  | 73 => ⟨S16384x1024, .f32⟩
  | 74 => ⟨S16384x1024, .f32⟩
  | 75 => ⟨S16384x512, .f32⟩
  | 76 => ⟨S16384x512, .f32⟩
  | 77 => ⟨S512x512, .f32⟩
  | 78 => ⟨S16384x512, .f32⟩
  | 79 => ⟨S1x512, .f32⟩
  | 80 => ⟨S16384x512, .f32⟩
  | 81 => ⟨S16384x512, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S16384x512, .f32⟩
  | 89 => ⟨S16384x512, .f32⟩
  | 90 => ⟨S16384x512, .f32⟩
  | 91 => ⟨S_, .f32⟩
  | 92 => ⟨S16384, .f32⟩
  | 93 => ⟨S16384x1, .f32⟩
  | 94 => ⟨S_, .f32⟩
  | 95 => ⟨S16384x1, .f32⟩
  | 96 => ⟨S16384x1, .f32⟩
  | 97 => ⟨S16384x512, .f32⟩
  | 98 => ⟨S16384x512, .f32⟩
  | 99 => ⟨S_, .f32⟩
  | 100 => ⟨S16384x1, .f32⟩
  | 101 => ⟨S16384x1, .f32⟩
  | 102 => ⟨S16384x1, .f32⟩
  | 103 => ⟨S16384x512, .f32⟩
  | 104 => ⟨S16384x512, .f32⟩
  | 105 => ⟨S512x512, .f32⟩
  | 106 => ⟨S16384x512, .f32⟩
  | 107 => ⟨S1x512, .f32⟩
  | 108 => ⟨S16384x512, .f32⟩
  | 109 => ⟨S16384x512, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x512, .f32⟩
  | 117 => ⟨S16384x512, .f32⟩
  | 118 => ⟨S16384x512, .f32⟩
  | 119 => ⟨S_, .f32⟩
  | 120 => ⟨S16384, .f32⟩
  | 121 => ⟨S16384x1, .f32⟩
  | 122 => ⟨S_, .f32⟩
  | 123 => ⟨S16384x1, .f32⟩
  | 124 => ⟨S16384x1, .f32⟩
  | 125 => ⟨S16384x512, .f32⟩
  | 126 => ⟨S16384x512, .f32⟩
  | 127 => ⟨S_, .f32⟩
  | _ => ⟨S16384x512, .f32⟩

abbrev hbmTy0_1 (i : Nat) : BufTy := match i % 128 with
  | 0 => ⟨S16384x1, .f32⟩
  | 1 => ⟨S16384x1, .f32⟩
  | 2 => ⟨S16384x1, .f32⟩
  | 3 => ⟨S16384x512, .f32⟩
  | 4 => ⟨S16384x512, .f32⟩
  | 5 => ⟨S16384x512, .f32⟩
  | 6 => ⟨S16384x512, .f32⟩
  | 7 => ⟨S16384x512, .f32⟩
  | 8 => ⟨S_, .f32⟩
  | 9 => ⟨S16384x512, .f32⟩
  | 10 => ⟨S16384x512, .f32⟩
  | 11 => ⟨S16384x512, .f32⟩
  | 12 => ⟨S16384x512, .f32⟩
  | 13 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_20 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  slices_S16384x1024_S16384x512_0_0 : S16384x1024.Slices ![0, 0] S16384x512
  slices_S16384x1024_S16384x512_0_512 : S16384x1024.Slices ![0, 512] S16384x512
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  dot_S16384x512_S512x1024_S16384x1024_1_0_0_1_n_n_wf : DotDims.WF S16384x512 S512x1024 S16384x1024 [1] [0] [0] [1] [] []
  dot_S16384x512_S512x512_S16384x512_1_0_0_1_n_n_wf : DotDims.WF S16384x512 S512x512 S16384x512 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.GruRow.lean ====
/-
  The mathematics of one row of a layer-normalised GRU cell, on the extended reals.

  A row `a` over a finite index type is normalised as `(a n - mean a) * rsqrt (var a + eps)`, where
  `mean a = (∑ a) / N` and `var a = (∑ (a - mean a)²) / N`; the other spelling divides by the square root,
  `(a n - mean a) / sqrt (var a + eps)`. The two agree at every extended-real row: a square is never
  negative, so `var a + eps` lies in `(0, ⊤]`, and on that range `y * rsqrt v = y / sqrt v` (at `⊤` both are
  `y * 0`; at a positive real `rsqrt v` is the real reciprocal of the real root, which is not zero).

  The cell's row: with `A = x·Wiᵀ + bi`, `B = h·Whᵀ + bh` (width 2H) and `C = x·WWᵀ + bW`, `D = h·WUᵀ + bU`
  (width H), `g = logistic (LN A + LN B)`, `z = g[:H]`, `r = g[H:]`, and the new state is
  `(1 - z) * h + z * tanh (LN C + r * LN D)`.
-/
import Idealize.ShloMosaic.PureOps.Ideal
import Idealize.ShloMosaic.PureOps.Ideal.Laws

noncomputable section

open scoped BigOperators

namespace Cert.GruRow

open Idealize.ShloMosaic

/-! ## The literals -/

theorem ofBits_1024 : Ideal.ofBits .f32 0x44800000#32 = ((1024 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

/-- The epsilon's pattern denotes a positive real (10995116 · 2⁻⁴⁰). -/
theorem ofBits_eps_pos : 0 < Ideal.ofBits .f32 0x3727C5AC#32 := by
  have h : Ideal.ofBits .f32 0x3727C5AC#32 = (((10995116 : ℝ) * (2 : ℝ) ^ (-40 : ℤ) : ℝ) : EReal) := by
    simp [Ideal.ofBits, Ideal.ieee, -EReal.coe_mul]
  rw [h]
  exact EReal.coe_pos.mpr (by positivity)

/-! ## Reciprocal root against quotient by the root -/

/-- A square of an extended real is not negative. -/
theorem mul_self_nonneg (d : EReal) : 0 ≤ d * d := by
  induction d using EReal.rec with
  | bot => simp
  | top => simp
  | coe r => rw [← EReal.coe_mul]; exact EReal.coe_nonneg.mpr (_root_.mul_self_nonneg r)

/-- Above zero the product with the reciprocal root is the quotient by the root. -/
theorem mul_rsqrt_eq_div_sqrt (y v : EReal) (hv : 0 < v) : y * Ideal.rsqrt v = Ideal.div y (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div, if_neg (by exact_mod_cast hs), EReal.coe_inv]

/-- A mean of squares plus a positive epsilon is positive. -/
theorem var_eps_pos {ι : Type} [Fintype ι] (d : ι → EReal) (c : ℝ) (hc : 0 < c) (e : EReal) (he : 0 < e) :
    0 < Ideal.div (∑ k, d k * d k) (c : EReal) + e := by
  have hs : 0 ≤ ∑ k, d k * d k := Finset.sum_nonneg fun k _ => mul_self_nonneg (d k)
  rw [Ideal.div_coe hc.ne']
  have h1 : (0 : EReal) ≤ ((1 / c : ℝ) : EReal) := EReal.coe_nonneg.mpr (by positivity)
  have h2 : 0 ≤ (∑ k, d k * d k) * ((1 / c : ℝ) : EReal) := mul_nonneg hs h1
  exact lt_of_lt_of_le he (le_add_of_nonneg_left h2)

/-! ## Layer normalisation of a row -/

section
variable {ι : Type} [Fintype ι]

/-- The row's mean: the sum over the row divided by the row length `cN`. -/
def mean (cN : EReal) (a : ι → EReal) : EReal := Ideal.div (∑ k, a k) cN

/-- The row's variance plus epsilon. -/
def varEps (cN ce : EReal) (a : ι → EReal) : EReal :=
  Ideal.div (∑ k, (a k - mean cN a) * (a k - mean cN a)) cN + ce

/-- Normalised with the reciprocal root. -/
def lnMul (cN ce : EReal) (a : ι → EReal) (n : ι) : EReal := (a n - mean cN a) * Ideal.rsqrt (varEps cN ce a)

/-- Normalised by division by the root. -/
def lnDiv (cN ce : EReal) (a : ι → EReal) (n : ι) : EReal := Ideal.div (a n - mean cN a) (Ideal.sqrt (varEps cN ce a))

theorem lnDiv_eq_lnMul (c : ℝ) (hc : 0 < c) (ce : EReal) (he : 0 < ce) (a : ι → EReal) (n : ι) :
    lnDiv (c : EReal) ce a n = lnMul (c : EReal) ce a n :=
  (mul_rsqrt_eq_div_sqrt _ _ (var_eps_pos (fun k => a k - mean (c : EReal) a) c hc ce he)).symm

end

/-- Row length 2H as the literal the programs spell. -/
abbrev c1024 : EReal := Ideal.ofBits .f32 0x44800000#32
/-- Row length H. -/
abbrev c512 : EReal := Ideal.ofBits .f32 0x44000000#32
/-- The epsilon. -/
abbrev ceps : EReal := Ideal.ofBits .f32 0x3727C5AC#32
/-- One. -/
abbrev cone : EReal := Ideal.ofBits .f32 0x3F800000#32

theorem lnDiv_eq_lnMul_1024 {ι : Type} [Fintype ι] (a : ι → EReal) (n : ι) : lnDiv c1024 ceps a n = lnMul c1024 ceps a n := by
  unfold c1024; rw [ofBits_1024]; exact lnDiv_eq_lnMul 1024 (by norm_num) _ ofBits_eps_pos a n

theorem lnDiv_eq_lnMul_512 {ι : Type} [Fintype ι] (a : ι → EReal) (n : ι) : lnDiv c512 ceps a n = lnMul c512 ceps a n := by
  unfold c512; rw [ofBits_512]; exact lnDiv_eq_lnMul 512 (by norm_num) _ ofBits_eps_pos a n

/-! ## The cell's row -/

/-- One output of a dense layer on a row: `∑ k, xr k * W n k + b n`. -/
def affine {ι κ : Type} [Fintype κ] (xr : κ → EReal) (W : ι → κ → EReal) (b : ι → EReal) (n : ι) : EReal :=
  (∑ k, xr k * W n k) + b n

/-- The first H of 2H columns. -/
def lo (q : Fin 512) : Fin 1024 := ⟨q.val, by have := q.isLt; omega⟩
/-- The last H of 2H columns. -/
def hi (q : Fin 512) : Fin 1024 := ⟨512 + q.val, by have := q.isLt; omega⟩

/-- The gates of a row, all 2H of them. -/
def gates (xr hr : Fin 512 → EReal) (Wi Wh : Fin 1024 → Fin 512 → EReal) (bi bh : Fin 1024 → EReal) (n : Fin 1024) : EReal :=
  Ideal.logistic (lnMul c1024 ceps (affine xr Wi bi) n + lnMul c1024 ceps (affine hr Wh bh) n)

/-- The new state of a row at column `q`, from the update gate `z`, the reset gate `r` and the two candidates. -/
def blend (z r hq ca cb : EReal) : EReal := (cone - z) * hq + z * Ideal.tanh (ca + r * cb)

/-- The cell's row. -/
def gruRow (xr hr : Fin 512 → EReal) (Wi Wh : Fin 1024 → Fin 512 → EReal) (bi bh : Fin 1024 → EReal)
    (WW WU : Fin 512 → Fin 512 → EReal) (bW bU : Fin 512 → EReal) (q : Fin 512) : EReal :=
  blend (gates xr hr Wi Wh bi bh (lo q)) (gates xr hr Wi Wh bi bh (hi q)) (hr q)
    (lnMul c512 ceps (affine xr WW bW) q) (lnMul c512 ceps (affine hr WU bU) q)

/-- The host's expansion of the logistic function is the logistic function. -/
theorem logistic_expand (x : EReal) : Ideal.div cone (cone + Ideal.exp (-x)) = Ideal.logistic x := by
  unfold cone; rw [ofBits_one]; rfl

end Cert.GruRow

end
-- ==== Proof.KernelRow.lean ====
/-
  The kernel's block, read row by row.

  One grid point holds 512 rows of `x` and `h` and all the weights. Its stored value is a tree of whole-block
  operations: four dense layers `x · Wᵀ + b` (the bf16 casts are the identity on extended reals), each followed
  by a layer normalisation along the row (row sum kept as a column, divided by the row length, broadcast back,
  subtracted; the same for the squares; the reciprocal root of variance plus epsilon broadcast back and
  multiplied), the logistic of the sum of the two wide ones cut into its two halves, and the blend with the hyperbolic
  tangent. Each of these is read here at an entry `(p, q)` of the block: every operation keeps the row `p`, so the
  entry is the row function `gruRow` of row `p` of the `x` and `h` blocks.
-/
import proofs.«136046_j4776003633435_1_alg».proof.Proof.Gen.KernelIdeal.Skeleton
import proofs.«136046_j4776003633435_1_alg».proof.Proof.GruRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowRead

open Cert.KernelIdeal Cert.KernelIdeal.Gen Idealize.ShloMosaic Idealize.ShloMosaic.TcCoe Idealize.ShloMosaic.ValueIdx Cert.GruRow

/-- A vector `[512]` kept as a column `[512, 1]` reads, at `(p, 0)`, the vector at `p`. -/
theorem castCol (v : S512.Idx → EReal) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_two, Shape.rowMajor_val_one]
    show p.val = p.val * 1 + 0
    omega)

/-! ### The product `x · Wᵀ` into S512x1024: both operands contract their second axis -/

theorem lhsA_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhsA_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem rhsA_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhsA_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- Entry `(p, n)` of `x · Wᵀ` is the sum over `k` of `x (p, k) * W (n, k)`. -/
theorem matmulA_apply (x : FVec Ideal S512x512 .bf16) (W : FVec Ideal S1024x512 .bf16) (p : Fin 512) (n : Fin 1024) :
    matmul dot_S512x512_S1024x512_S512x1024_1_1_0_0_n_n none x W (constant S512x1024 .f32 0x00000000#32) (ix2 p n)
      = ∑ k : Fin 512, x (ix2 p k) * W (ix2 n k) := by
  simp only [matmul]
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 p n) ((ValueIdx.contrEquiv1 dot_S512x512_S1024x512_S512x1024_1_1_0_0_n_n 512 rfl rfl).symm k) = ix2 p k := funext fun a => Fin.ext (by
    match a with
    | ⟨0, _⟩ => exact lhsA_0 _ _
    | ⟨1, _⟩ => exact (lhsA_1 _ _).trans hk)
  have er : dot_S512x512_S1024x512_S512x1024_1_1_0_0_n_n.rhsIdx (ix2 p n) ((ValueIdx.contrEquiv1 dot_S512x512_S1024x512_S512x1024_1_1_0_0_n_n 512 rfl rfl).symm k) = ix2 n k := funext fun a => Fin.ext (by
    match a with
    | ⟨0, _⟩ => exact rhsA_0 _ _
    | ⟨1, _⟩ => exact (rhsA_1 _ _).trans hk)
  rw [el, er]

/-! ### The product `x · Wᵀ` into S512x512: both operands contract their second axis -/

theorem lhsB_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhsB_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhsB_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhsB_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Entry `(p, n)` of `x · Wᵀ` is the sum over `k` of `x (p, k) * W (n, k)`. -/
theorem matmulB_apply (x : FVec Ideal S512x512 .bf16) (W : FVec Ideal S512x512 .bf16) (p : Fin 512) (n : Fin 512) :
    matmul dot_S512x512_S512x512_S512x512_1_1_0_0_n_n none x W (constant S512x512 .f32 0x00000000#32) (ix2 p n)
      = ∑ k : Fin 512, x (ix2 p k) * W (ix2 n k) := by
  simp only [matmul]
  rw [Ideal.matmul_constant_zero_apply, ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 p n) ((ValueIdx.contrEquiv1 dot_S512x512_S512x512_S512x512_1_1_0_0_n_n 512 rfl rfl).symm k) = ix2 p k := funext fun a => Fin.ext (by
    match a with
    | ⟨0, _⟩ => exact lhsB_0 _ _
    | ⟨1, _⟩ => exact (lhsB_1 _ _).trans hk)
  have er : dot_S512x512_S512x512_S512x512_1_1_0_0_n_n.rhsIdx (ix2 p n) ((ValueIdx.contrEquiv1 dot_S512x512_S512x512_S512x512_1_1_0_0_n_n 512 rfl rfl).symm k) = ix2 n k := funext fun a => Fin.ext (by
    match a with
    | ⟨0, _⟩ => exact rhsB_0 _ _
    | ⟨1, _⟩ => exact (rhsB_1 _ _).trans hk)
  rw [el, er]

/-! ### Layer normalisation of a S512x1024 block, row by row -/

/-- A row sum of a S512x1024 block. -/
theorem rowsum1024 (a : FVec Ideal S512x1024 .f32) (p : Fin 512) :
    multiReduction .add [1] S512 a 0x00000000#32 reduces_S512x1024_S512 (.inl rfl) rfl (ix1 p) = ∑ k : Fin 1024, a (ix2 p k) := by
  refine (Ideal.multiReduction_add_single a 0x00000000#32 reduces_S512x1024_S512 (.inl rfl) rfl (ix1 p)).trans ?_
  refine Finset.sum_congr rfl fun k _ => congrArg a ?_
  funext d
  apply Fin.ext
  match d with
  | ⟨0, _⟩ => rfl
  | ⟨1, _⟩ => rfl

/-- A column `[512, 1]` broadcast along the rows of a S512x1024 block reads its row's one entry. -/
theorem bcastCol1024 (col : S512x1.Idx → EReal) (p : Fin 512) (n : Fin 1024) :
    broadcastTo S512x1024 col broadcasts_S512x1_S512x1024 (ix2 p n) = col (ix2 p (0 : Fin 1)) := by
  refine broadcastTo_apply col broadcasts_S512x1_S512x1024 (ix2 p n) (ix2 p (0 : Fin 1)) fun ax => ?_
  match ax with
  | ⟨0, _⟩ => show p.val = if (512 : Nat) = 1 then 0 else p.val; rw [if_neg (by decide)]
  | ⟨1, _⟩ => show 0 = if (1 : Nat) = 1 then 0 else n.val; rw [if_pos rfl]

/-- The column of row means (sum, kept as a column, divided by the row length). -/
def meanCol1024 (a : FVec Ideal S512x1024 .f32) : FVec Ideal S512x1 .f32 :=
  divf (shapeCast S512x1 (multiReduction .add [1] S512 a 0x00000000#32 reduces_S512x1024_S512 (.inl rfl) rfl) shapeCasts_S512_S512x1)
    (broadcast S512x1 (Scalar.ofBits .f32 0x44800000#32))

/-- The block minus its row means. -/
def centered1024 (a : FVec Ideal S512x1024 .f32) : FVec Ideal S512x1024 .f32 :=
  subf a (broadcastTo S512x1024 (meanCol1024 a) broadcasts_S512x1_S512x1024)

/-- The column of reciprocal roots of variance plus epsilon. -/
def rstd1024 (a : FVec Ideal S512x1024 .f32) : FVec Ideal S512x1 .f32 :=
  rsqrt (addf (meanCol1024 (mulf (centered1024 a) (centered1024 a))) (broadcast S512x1 (Scalar.ofBits .f32 0x3727C5AC#32)))

/-- The normalised block. -/
def lnv1024 (a : FVec Ideal S512x1024 .f32) : FVec Ideal S512x1024 .f32 :=
  mulf (centered1024 a) (broadcastTo S512x1024 (rstd1024 a) broadcasts_S512x1_S512x1024)

theorem meanCol1024_apply (a : FVec Ideal S512x1024 .f32) (p : Fin 512) :
    meanCol1024 a (ix2 p (0 : Fin 1)) = mean c1024 (fun k => a (ix2 p k)) := by
  unfold meanCol1024 mean
  show Ideal.div (shapeCast S512x1 (multiReduction .add [1] S512 a 0x00000000#32 reduces_S512x1024_S512 (.inl rfl) rfl) shapeCasts_S512_S512x1 (ix2 p (0 : Fin 1))) c1024 = _
  rw [castCol, rowsum1024]

theorem centered1024_apply (a : FVec Ideal S512x1024 .f32) (p : Fin 512) (n : Fin 1024) :
    centered1024 a (ix2 p n) = a (ix2 p n) - mean c1024 (fun k => a (ix2 p k)) := by
  unfold centered1024
  show a (ix2 p n) - broadcastTo S512x1024 (meanCol1024 a) broadcasts_S512x1_S512x1024 (ix2 p n) = _
  rw [bcastCol1024, meanCol1024_apply]

theorem rstd1024_apply (a : FVec Ideal S512x1024 .f32) (p : Fin 512) :
    rstd1024 a (ix2 p (0 : Fin 1)) = Ideal.rsqrt (varEps c1024 ceps (fun k => a (ix2 p k))) := by
  unfold rstd1024 varEps
  show Ideal.rsqrt (meanCol1024 (mulf (centered1024 a) (centered1024 a)) (ix2 p (0 : Fin 1)) + ceps) = _
  rw [meanCol1024_apply]
  unfold mean
  refine congrArg (fun s => Ideal.rsqrt (Ideal.div s c1024 + ceps)) (Finset.sum_congr rfl fun k _ => ?_)
  show centered1024 a (ix2 p k) * centered1024 a (ix2 p k) = _
  rw [centered1024_apply]
  rfl

theorem lnv1024_apply (a : FVec Ideal S512x1024 .f32) (p : Fin 512) (n : Fin 1024) :
    lnv1024 a (ix2 p n) = lnMul c1024 ceps (fun k => a (ix2 p k)) n := by
  unfold lnv1024 lnMul
  show centered1024 a (ix2 p n) * broadcastTo S512x1024 (rstd1024 a) broadcasts_S512x1_S512x1024 (ix2 p n) = _
  rw [centered1024_apply, bcastCol1024, rstd1024_apply]

/-! ### Layer normalisation of a S512x512 block, row by row -/

/-- A row sum of a S512x512 block. -/
theorem rowsum512 (a : FVec Ideal S512x512 .f32) (p : Fin 512) :
    multiReduction .add [1] S512 a 0x00000000#32 reduces_S512x512_S512 (.inl rfl) rfl (ix1 p) = ∑ k : Fin 512, a (ix2 p k) := by
  refine (Ideal.multiReduction_add_single a 0x00000000#32 reduces_S512x512_S512 (.inl rfl) rfl (ix1 p)).trans ?_
  refine Finset.sum_congr rfl fun k _ => congrArg a ?_
  funext d
  apply Fin.ext
  match d with
  | ⟨0, _⟩ => rfl
  | ⟨1, _⟩ => rfl

/-- A column `[512, 1]` broadcast along the rows of a S512x512 block reads its row's one entry. -/
theorem bcastCol512 (col : S512x1.Idx → EReal) (p : Fin 512) (n : Fin 512) :
    broadcastTo S512x512 col broadcasts_S512x1_S512x512 (ix2 p n) = col (ix2 p (0 : Fin 1)) := by
  refine broadcastTo_apply col broadcasts_S512x1_S512x512 (ix2 p n) (ix2 p (0 : Fin 1)) fun ax => ?_
  match ax with
  | ⟨0, _⟩ => show p.val = if (512 : Nat) = 1 then 0 else p.val; rw [if_neg (by decide)]
  | ⟨1, _⟩ => show 0 = if (1 : Nat) = 1 then 0 else n.val; rw [if_pos rfl]

/-- The column of row means (sum, kept as a column, divided by the row length). -/
def meanCol512 (a : FVec Ideal S512x512 .f32) : FVec Ideal S512x1 .f32 :=
  divf (shapeCast S512x1 (multiReduction .add [1] S512 a 0x00000000#32 reduces_S512x512_S512 (.inl rfl) rfl) shapeCasts_S512_S512x1)
    (broadcast S512x1 (Scalar.ofBits .f32 0x44000000#32))

/-- The block minus its row means. -/
def centered512 (a : FVec Ideal S512x512 .f32) : FVec Ideal S512x512 .f32 :=
  subf a (broadcastTo S512x512 (meanCol512 a) broadcasts_S512x1_S512x512)

/-- The column of reciprocal roots of variance plus epsilon. -/
def rstd512 (a : FVec Ideal S512x512 .f32) : FVec Ideal S512x1 .f32 :=
  rsqrt (addf (meanCol512 (mulf (centered512 a) (centered512 a))) (broadcast S512x1 (Scalar.ofBits .f32 0x3727C5AC#32)))

/-- The normalised block. -/
def lnv512 (a : FVec Ideal S512x512 .f32) : FVec Ideal S512x512 .f32 :=
  mulf (centered512 a) (broadcastTo S512x512 (rstd512 a) broadcasts_S512x1_S512x512)

theorem meanCol512_apply (a : FVec Ideal S512x512 .f32) (p : Fin 512) :
    meanCol512 a (ix2 p (0 : Fin 1)) = mean c512 (fun k => a (ix2 p k)) := by
  unfold meanCol512 mean
  show Ideal.div (shapeCast S512x1 (multiReduction .add [1] S512 a 0x00000000#32 reduces_S512x512_S512 (.inl rfl) rfl) shapeCasts_S512_S512x1 (ix2 p (0 : Fin 1))) c512 = _
  rw [castCol, rowsum512]

theorem centered512_apply (a : FVec Ideal S512x512 .f32) (p : Fin 512) (n : Fin 512) :
    centered512 a (ix2 p n) = a (ix2 p n) - mean c512 (fun k => a (ix2 p k)) := by
  unfold centered512
  show a (ix2 p n) - broadcastTo S512x512 (meanCol512 a) broadcasts_S512x1_S512x512 (ix2 p n) = _
  rw [bcastCol512, meanCol512_apply]

theorem rstd512_apply (a : FVec Ideal S512x512 .f32) (p : Fin 512) :
    rstd512 a (ix2 p (0 : Fin 1)) = Ideal.rsqrt (varEps c512 ceps (fun k => a (ix2 p k))) := by
  unfold rstd512 varEps
  show Ideal.rsqrt (meanCol512 (mulf (centered512 a) (centered512 a)) (ix2 p (0 : Fin 1)) + ceps) = _
  rw [meanCol512_apply]
  unfold mean
  refine congrArg (fun s => Ideal.rsqrt (Ideal.div s c512 + ceps)) (Finset.sum_congr rfl fun k _ => ?_)
  show centered512 a (ix2 p k) * centered512 a (ix2 p k) = _
  rw [centered512_apply]
  rfl

theorem lnv512_apply (a : FVec Ideal S512x512 .f32) (p : Fin 512) (n : Fin 512) :
    lnv512 a (ix2 p n) = lnMul c512 ceps (fun k => a (ix2 p k)) n := by
  unfold lnv512 lnMul
  show centered512 a (ix2 p n) * broadcastTo S512x512 (rstd512 a) broadcasts_S512x1_S512x512 (ix2 p n) = _
  rw [centered512_apply, bcastCol512, rstd512_apply]

/-! ### The dense layers -/

/-- The dense layer on a block: `x · Wᵀ` plus the bias row. -/
def denseA (x : FVec Ideal S512x512 .f32) (W : FVec Ideal S1024x512 .f32) (b : FVec Ideal S1x1024 .f32) : FVec Ideal S512x1024 .f32 :=
  addf (matmul dot_S512x512_S1024x512_S512x1024_1_1_0_0_n_n none (truncf .bf16 x bitsLt_bf16_f32) (truncf .bf16 W bitsLt_bf16_f32) (constant S512x1024 .f32 0x00000000#32))
    (broadcastTo S512x1024 (shapeCast S1x1024 b shapeCasts_S1x1024_S1x1024) broadcasts_S1x1024_S512x1024)

theorem denseA_apply (x : FVec Ideal S512x512 .f32) (W : FVec Ideal S1024x512 .f32) (b : FVec Ideal S1x1024 .f32) (p : Fin 512) (n : Fin 1024) :
    denseA x W b (ix2 p n) = affine (fun k => x (ix2 p k)) (fun n k => W (ix2 n k)) (fun n => b (ix2 (0 : Fin 1) n)) n := by
  unfold denseA affine
  show matmul dot_S512x512_S1024x512_S512x1024_1_1_0_0_n_n none (truncf .bf16 x bitsLt_bf16_f32) (truncf .bf16 W bitsLt_bf16_f32) (constant S512x1024 .f32 0x00000000#32) (ix2 p n)
      + broadcastTo S512x1024 (shapeCast S1x1024 b shapeCasts_S1x1024_S1x1024) broadcasts_S1x1024_S512x1024 (ix2 p n) = _
  rw [matmulA_apply, broadcastTo_1b_ab_apply, shapeCast_self]
  rfl

/-- The dense layer on a block: `x · Wᵀ` plus the bias row. -/
def denseB (x : FVec Ideal S512x512 .f32) (W : FVec Ideal S512x512 .f32) (b : FVec Ideal S1x512 .f32) : FVec Ideal S512x512 .f32 :=
  addf (matmul dot_S512x512_S512x512_S512x512_1_1_0_0_n_n none (truncf .bf16 x bitsLt_bf16_f32) (truncf .bf16 W bitsLt_bf16_f32) (constant S512x512 .f32 0x00000000#32))
    (broadcastTo S512x512 (shapeCast S1x512 b shapeCasts_S1x512_S1x512) broadcasts_S1x512_S512x512)

theorem denseB_apply (x : FVec Ideal S512x512 .f32) (W : FVec Ideal S512x512 .f32) (b : FVec Ideal S1x512 .f32) (p : Fin 512) (n : Fin 512) :
    denseB x W b (ix2 p n) = affine (fun k => x (ix2 p k)) (fun n k => W (ix2 n k)) (fun n => b (ix2 (0 : Fin 1) n)) n := by
  unfold denseB affine
  show matmul dot_S512x512_S512x512_S512x512_1_1_0_0_n_n none (truncf .bf16 x bitsLt_bf16_f32) (truncf .bf16 W bitsLt_bf16_f32) (constant S512x512 .f32 0x00000000#32) (ix2 p n)
      + broadcastTo S512x512 (shapeCast S1x512 b shapeCasts_S1x512_S1x512) broadcasts_S1x512_S512x512 (ix2 p n) = _
  rw [matmulB_apply, broadcastTo_1b_ab_apply, shapeCast_self]
  rfl

/-! ### The gates and the stored block -/

/-- All `2H` gates of the block. -/
def gateVec (x0 x1 : FVec Ideal S512x512 .f32) (x2 : FVec Ideal S1024x512 .f32) (x3 : FVec Ideal S1x1024 .f32)
    (x4 : FVec Ideal S1024x512 .f32) (x5 : FVec Ideal S1x1024 .f32) : FVec Ideal S512x1024 .f32 :=
  logistic (addf (lnv1024 (denseA x0 x2 x3)) (lnv1024 (denseA x1 x4 x5)))

theorem gateVec_apply (x0 x1 : FVec Ideal S512x512 .f32) (x2 : FVec Ideal S1024x512 .f32) (x3 : FVec Ideal S1x1024 .f32)
    (x4 : FVec Ideal S1024x512 .f32) (x5 : FVec Ideal S1x1024 .f32) (p : Fin 512) (n : Fin 1024) :
    gateVec x0 x1 x2 x3 x4 x5 (ix2 p n)
      = gates (fun k => x0 (ix2 p k)) (fun k => x1 (ix2 p k)) (fun n k => x2 (ix2 n k)) (fun n k => x4 (ix2 n k))
          (fun n => x3 (ix2 (0 : Fin 1) n)) (fun n => x5 (ix2 (0 : Fin 1) n)) n := by
  unfold gateVec gates
  show Ideal.logistic (lnv1024 (denseA x0 x2 x3) (ix2 p n) + lnv1024 (denseA x1 x4 x5) (ix2 p n)) = _
  rw [lnv1024_apply, lnv1024_apply]
  simp only [denseA_apply]

/-- What the kernel stores for a grid point, as one tree of block operations of the ten loaded blocks. -/
def outVec (x0 x1 : FVec Ideal S512x512 .f32) (x2 : FVec Ideal S1024x512 .f32) (x3 : FVec Ideal S1x1024 .f32)
    (x4 : FVec Ideal S1024x512 .f32) (x5 : FVec Ideal S1x1024 .f32) (x6 : FVec Ideal S512x512 .f32) (x7 : FVec Ideal S1x512 .f32)
    (x8 : FVec Ideal S512x512 .f32) (x9 : FVec Ideal S1x512 .f32) : FVec Ideal S512x512 .f32 :=
  addf
    (mulf (subf (broadcast S512x512 (Scalar.ofBits .f32 0x3F800000#32))
        (extractStridedSlice S512x512 ![0, 0] (gateVec x0 x1 x2 x3 x4 x5) slices_S512x1024_o0_0_S512x512)) x1)
    (mulf (extractStridedSlice S512x512 ![0, 0] (gateVec x0 x1 x2 x3 x4 x5) slices_S512x1024_o0_0_S512x512)
      (tanh (addf (lnv512 (denseB x0 x6 x7))
        (mulf (extractStridedSlice S512x512 ![0, 512] (gateVec x0 x1 x2 x3 x4 x5) slices_S512x1024_o0_512_S512x512)
          (lnv512 (denseB x1 x8 x9))))))

/-- The skeleton's payloads compose to that tree. -/
theorem pay_eq (x0 x1 : Vec Ideal S512x512 .f32) (x2 : Vec Ideal S1024x512 .f32) (x3 : Vec Ideal S1x1024 .f32)
    (x4 : Vec Ideal S1024x512 .f32) (x5 : Vec Ideal S1x1024 .f32) (x6 : Vec Ideal S512x512 .f32) (x7 : Vec Ideal S1x512 .f32)
    (x8 : Vec Ideal S512x512 .f32) (x9 : Vec Ideal S1x512 .f32) :
    k0_pay1 (F := Ideal) x1 (k0_pay3 x1) (k0_pay5 x8) (k0_pay9 (k0_pay6 x0 x2 x3) (k0_pay7 x1 x4) x5) (k0_pay10 (k0_pay6 x0 x2 x3) (k0_pay7 x1 x4) x5)
        (k0_pay13 (k0_pay2 x0) (k0_pay4 x6) x7) (k0_pay14 (k0_pay2 x0) (k0_pay4 x6) x7) x9
      = outVec x0 x1 x2 x3 x4 x5 x6 x7 x8 x9 := rfl

/-- The stored block at `(p, q)` is the cell's row function of row `p` of the `x` and `h` blocks. -/
theorem outVec_apply (x0 x1 : FVec Ideal S512x512 .f32) (x2 : FVec Ideal S1024x512 .f32) (x3 : FVec Ideal S1x1024 .f32)
    (x4 : FVec Ideal S1024x512 .f32) (x5 : FVec Ideal S1x1024 .f32) (x6 : FVec Ideal S512x512 .f32) (x7 : FVec Ideal S1x512 .f32)
    (x8 : FVec Ideal S512x512 .f32) (x9 : FVec Ideal S1x512 .f32) (p q : Fin 512) :
    outVec x0 x1 x2 x3 x4 x5 x6 x7 x8 x9 (ix2 p q)
      = gruRow (fun k => x0 (ix2 p k)) (fun k => x1 (ix2 p k)) (fun n k => x2 (ix2 n k)) (fun n k => x4 (ix2 n k))
          (fun n => x3 (ix2 (0 : Fin 1) n)) (fun n => x5 (ix2 (0 : Fin 1) n))
          (fun n k => x6 (ix2 n k)) (fun n k => x8 (ix2 n k)) (fun n => x7 (ix2 (0 : Fin 1) n)) (fun n => x9 (ix2 (0 : Fin 1) n)) q := by
  have hz : extractStridedSlice S512x512 ![0, 0] (gateVec x0 x1 x2 x3 x4 x5) slices_S512x1024_o0_0_S512x512 (ix2 p q)
      = gateVec x0 x1 x2 x3 x4 x5 (ix2 p (lo q)) :=
    (ValueIdx.slice2_axis1_eq 0 (gateVec x0 x1 x2 x3 x4 x5) slices_S512x1024_o0_0_S512x512 p q).trans
      (congrArg (fun j => gateVec x0 x1 x2 x3 x4 x5 (ix2 p j)) (Fin.ext (Nat.zero_add q.val)))
  have hr : extractStridedSlice S512x512 ![0, 512] (gateVec x0 x1 x2 x3 x4 x5) slices_S512x1024_o0_512_S512x512 (ix2 p q)
      = gateVec x0 x1 x2 x3 x4 x5 (ix2 p (hi q)) :=
    ValueIdx.slice2_axis1_eq 512 (gateVec x0 x1 x2 x3 x4 x5) slices_S512x1024_o0_512_S512x512 p q
  unfold outVec gruRow blend
  show (cone - extractStridedSlice S512x512 ![0, 0] (gateVec x0 x1 x2 x3 x4 x5) slices_S512x1024_o0_0_S512x512 (ix2 p q)) * x1 (ix2 p q)
      + extractStridedSlice S512x512 ![0, 0] (gateVec x0 x1 x2 x3 x4 x5) slices_S512x1024_o0_0_S512x512 (ix2 p q)
        * Ideal.tanh (lnv512 (denseB x0 x6 x7) (ix2 p q)
            + extractStridedSlice S512x512 ![0, 512] (gateVec x0 x1 x2 x3 x4 x5) slices_S512x1024_o0_512_S512x512 (ix2 p q)
              * lnv512 (denseB x1 x8 x9) (ix2 p q)) = _
  rw [hz, hr, gateVec_apply, gateVec_apply, lnv512_apply, lnv512_apply]
  simp only [denseB_apply]

end Cert.KernelIdeal.RowRead

end
-- ==== Proof.GruCell.lean ====
/-
  The whole result array of the cell as one function of the ten argument arrays: entry `(r, q)` is the row function
  `gruRow` of row `r` of `x` and of `h` and of the weights, at column `q`.
-/
import proofs.«136046_j4776003633435_1_alg».proof.Proof.GruRow
import Idealize.ShloMosaic.Lib.ValueIdx

noncomputable section

namespace Cert.GruRow

open Idealize.ShloMosaic Idealize.ShloMosaic.ValueIdx

/-- The cell over `B = 16384` rows, `I = H = 512`. -/
def cell (x h : (⟨2, ![16384, 512]⟩ : Shape).Idx → EReal)
    (Wi : (⟨2, ![1024, 512]⟩ : Shape).Idx → EReal) (bi : (⟨1, ![1024]⟩ : Shape).Idx → EReal)
    (Wh : (⟨2, ![1024, 512]⟩ : Shape).Idx → EReal) (bh : (⟨1, ![1024]⟩ : Shape).Idx → EReal)
    (WW : (⟨2, ![512, 512]⟩ : Shape).Idx → EReal) (bW : (⟨1, ![512]⟩ : Shape).Idx → EReal)
    (WU : (⟨2, ![512, 512]⟩ : Shape).Idx → EReal) (bU : (⟨1, ![512]⟩ : Shape).Idx → EReal) :
    (⟨2, ![16384, 512]⟩ : Shape).Idx → EReal := fun i =>
  gruRow (fun k => x (ix2 (i 0) k)) (fun k => h (ix2 (i 0) k))
    (fun n k => Wi (ix2 n k)) (fun n k => Wh (ix2 n k)) (fun n => bi (ix1 n)) (fun n => bh (ix1 n))
    (fun n k => WW (ix2 n k)) (fun n k => WU (ix2 n k)) (fun n => bW (ix1 n)) (fun n => bU (ix1 n)) (i 1)

/-- At `(r, q)`. -/
theorem cell_apply (x h : (⟨2, ![16384, 512]⟩ : Shape).Idx → EReal)
    (Wi : (⟨2, ![1024, 512]⟩ : Shape).Idx → EReal) (bi : (⟨1, ![1024]⟩ : Shape).Idx → EReal)
    (Wh : (⟨2, ![1024, 512]⟩ : Shape).Idx → EReal) (bh : (⟨1, ![1024]⟩ : Shape).Idx → EReal)
    (WW : (⟨2, ![512, 512]⟩ : Shape).Idx → EReal) (bW : (⟨1, ![512]⟩ : Shape).Idx → EReal)
    (WU : (⟨2, ![512, 512]⟩ : Shape).Idx → EReal) (bU : (⟨1, ![512]⟩ : Shape).Idx → EReal) (r : Fin 16384) (q : Fin 512) :
    cell x h Wi bi Wh bh WW bW WU bU (ix2 r q)
      = gruRow (fun k => x (ix2 r k)) (fun k => h (ix2 r k))
          (fun n k => Wi (ix2 n k)) (fun n k => Wh (ix2 n k)) (fun n => bi (ix1 n)) (fun n => bh (ix1 n))
          (fun n k => WW (ix2 n k)) (fun n k => WU (ix2 n k)) (fun n => bW (ix1 n)) (fun n => bU (ix1 n)) q := rfl

end Cert.GruRow

end
-- ==== Proof.KernelValue.lean ====
/-
  From the blocks to the array. Grid point `t` of 32 reads rows `512 t … 512 t + 511` of `x` and `h` and every weight whole
  (the biases as one row, reshaped before the call), and writes the same rows of the result. What it writes is the
  cell's row function of those rows, so the point's block is block `t` of the whole-array function `cell`; the 32 blocks
  tile the result, so after the run the result array is `cell` of the argument arrays.
-/
import proofs.«136046_j4776003633435_1_alg».proof.Proof.Gen.KernelIdeal.Value
import proofs.«136046_j4776003633435_1_alg».proof.Proof.KernelRow
import proofs.«136046_j4776003633435_1_alg».proof.Proof.GruCell
import Idealize.ShloMosaic.Lib.StableHlo.Run
import Idealize.ShloMosaic.Lib.ValueLayout

noncomputable section

namespace Cert.KernelIdeal.ArrValue

open Cert.KernelIdeal Cert.KernelIdeal.Gen Cert.KernelIdeal.Value Cert.KernelIdeal.RowRead Cert.GruRow
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The bias rows as the region finds them: the arguments, reshaped to one row -/

theorem V_main_v0 (c : Dev nD) : (V m c main_v0 : S1x1024.Idx → EReal)
    = shapeCast S1x1024 (m ((c : Thread nD τ).loc main_arg3)) shapeCasts_S1024_S1x1024 := by
  dsimp only [Gen.V, Gen.hostOps0]; after_results; rfl
theorem V_main_v1 (c : Dev nD) : (V m c main_v1 : S1x1024.Idx → EReal)
    = shapeCast S1x1024 (m ((c : Thread nD τ).loc main_arg5)) shapeCasts_S1024_S1x1024 := by
  dsimp only [Gen.V, Gen.hostOps0]; after_results; rfl
theorem V_main_v2 (c : Dev nD) : (V m c main_v2 : S1x512.Idx → EReal)
    = shapeCast S1x512 (m ((c : Thread nD τ).loc main_arg7)) shapeCasts_S512_S1x512 := by
  dsimp only [Gen.V, Gen.hostOps0]; after_results; rfl
theorem V_main_v3 (c : Dev nD) : (V m c main_v3 : S1x512.Idx → EReal)
    = shapeCast S1x512 (m ((c : Thread nD τ).loc main_arg9)) shapeCasts_S512_S1x512 := by
  dsimp only [Gen.V, Gen.hostOps0]; after_results; rfl

/-! ## The index maps over the grid -/

/-- Decided over the 32 points: `x`, `h` and the result move down one block of rows per point; every weight stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every block of rows is some point's. -/
theorem idx_onto : ∀ q0 : Fin 32, ∃ t : Fin cfg0.N, win0_10.index t = ![q0.val, 0] :=
  (by decide +kernel : ∀ q0 : Fin 32, ∃ t : Fin grid0.N, win0_10.index t = ![q0.val, 0])

/-! ## What a point writes back -/

/-- Point `t` writes block `t` of `cell` of the argument arrays. -/
theorem flushed_eq (c : Dev nD) (t : Fin cfg0.N) :
    (dats m 0 c).flushed 10 t = ((cfg0.win 10).blk t).view.read (Elt Ideal)
      (cell (V m c main_arg0) (V m c main_arg1) (V m c main_arg2) (m ((c : Thread nD τ).loc main_arg3))
        (V m c main_arg4) (m ((c : Thread nD τ).loc main_arg5)) (V m c main_arg6) (m ((c : Thread nD τ).loc main_arg7))
        (V m c main_arg8) (m ((c : Thread nD τ).loc main_arg9))) := by
  rw [Value.flushed10]
  unfold out0_10
  rw [View.canon_unit_zero hz]
  simp only [View.ld_unit_zero (S := S512x512) hz, View.ld_unit_zero (S := S1024x512) hz, View.ld_unit_zero (S := S1x1024) hz,
    View.ld_unit_zero (S := S1x512) hz]
  obtain ⟨e00, e01, e10, e11, eo0, eo1, e20, e21, e30, e31, e40, e41, e50, e51, e60, e61, e70, e71, e80, e81, e90, e91⟩ := idx_facts t
  funext j
  obtain ⟨p, q, rfl⟩ : ∃ (p : Fin 512) (q : Fin 512), j = ix2 p q := ⟨j 0, j 1, eq_ix2 j⟩
  show outVec (iblk m c 0 t) (iblk m c 1 t) (iblk m c 2 t) (iblk m c 3 t) (iblk m c 4 t) (iblk m c 5 t) (iblk m c 6 t) (iblk m c 7 t)
      (iblk m c 8 t) (iblk m c 9 t) (ix2 p q)
    = cell (V m c main_arg0) (V m c main_arg1) (V m c main_arg2) (m ((c : Thread nD τ).loc main_arg3))
        (V m c main_arg4) (m ((c : Thread nD τ).loc main_arg5)) (V m c main_arg6) (m ((c : Thread nD τ).loc main_arg7))
        (V m c main_arg8) (m ((c : Thread nD τ).loc main_arg9)) (((cfg0.win 10).blk t).view.emb (ix2 p q))
  -- the block entry lies at row `512 t + p`, column `q` of the array
  have hE : ((cfg0.win 10).blk t).view.emb (ix2 p q) = ix2 (⟨t.val * 512 + p.val, by have := t.isLt; have := p.isLt; have : cfg0.N = 32 := N_0; omega⟩ : Fin 16384) q := by
    funext a; apply Fin.ext
    match a with
    | ⟨0, _⟩ => show win0_10.index t (0 : Fin 2) * 512 + 1 * p.val = t.val * 512 + p.val; omega
    | ⟨1, _⟩ => show win0_10.index t (1 : Fin 2) * 512 + 1 * q.val = q.val; omega
  rw [hE, cell_apply]
  refine (outVec_apply (iblk m c 0 t) (iblk m c 1 t) (iblk m c 2 t) (iblk m c 3 t) (iblk m c 4 t) (iblk m c 5 t) (iblk m c 6 t)
    (iblk m c 7 t) (iblk m c 8 t) (iblk m c 9 t) p q).trans ?_
  -- rows `p` of the `x` and `h` blocks are rows `512 t + p` of the arrays
  have h0 : ∀ k : Fin 512, iblk m c 0 t (ix2 p k) = V m c main_arg0 (ix2 (⟨t.val * 512 + p.val, by have := t.isLt; have := p.isLt; have : cfg0.N = 32 := N_0; omega⟩ : Fin 16384) k) := fun k => by
    show V m c main_arg0 (((cfg0.win 0).blk t).view.emb (ix2 p k)) = _
    refine congrArg (V m c main_arg0) ?_
    funext a; apply Fin.ext
    match a with
    | ⟨0, _⟩ => show win0_0.index t (0 : Fin 2) * 512 + 1 * p.val = t.val * 512 + p.val; omega
    | ⟨1, _⟩ => show win0_0.index t (1 : Fin 2) * 512 + 1 * k.val = k.val; omega
  have h1 : ∀ k : Fin 512, iblk m c 1 t (ix2 p k) = V m c main_arg1 (ix2 (⟨t.val * 512 + p.val, by have := t.isLt; have := p.isLt; have : cfg0.N = 32 := N_0; omega⟩ : Fin 16384) k) := fun k => by
    show V m c main_arg1 (((cfg0.win 1).blk t).view.emb (ix2 p k)) = _
    refine congrArg (V m c main_arg1) ?_
    funext a; apply Fin.ext
    match a with
    | ⟨0, _⟩ => show win0_1.index t (0 : Fin 2) * 512 + 1 * p.val = t.val * 512 + p.val; omega
    | ⟨1, _⟩ => show win0_1.index t (1 : Fin 2) * 512 + 1 * k.val = k.val; omega
  -- the weights are read whole
  have h2 : ∀ (n : Fin 1024) (k : Fin 512), iblk m c 2 t (ix2 n k) = V m c main_arg2 (ix2 n k) := fun n k => by
    show V m c main_arg2 (((cfg0.win 2).blk t).view.emb (ix2 n k)) = _
    refine congrArg (V m c main_arg2) ?_
    funext a; apply Fin.ext
    match a with
    | ⟨0, _⟩ => show win0_2.index t (0 : Fin 2) * 1024 + 1 * n.val = n.val; omega
    | ⟨1, _⟩ => show win0_2.index t (1 : Fin 2) * 512 + 1 * k.val = k.val; omega
  have h4 : ∀ (n : Fin 1024) (k : Fin 512), iblk m c 4 t (ix2 n k) = V m c main_arg4 (ix2 n k) := fun n k => by
    show V m c main_arg4 (((cfg0.win 4).blk t).view.emb (ix2 n k)) = _
    refine congrArg (V m c main_arg4) ?_
    funext a; apply Fin.ext
    match a with
    | ⟨0, _⟩ => show win0_4.index t (0 : Fin 2) * 1024 + 1 * n.val = n.val; omega
    | ⟨1, _⟩ => show win0_4.index t (1 : Fin 2) * 512 + 1 * k.val = k.val; omega
  have h6 : ∀ (n : Fin 512) (k : Fin 512), iblk m c 6 t (ix2 n k) = V m c main_arg6 (ix2 n k) := fun n k => by
    show V m c main_arg6 (((cfg0.win 6).blk t).view.emb (ix2 n k)) = _
    refine congrArg (V m c main_arg6) ?_
    funext a; apply Fin.ext
    match a with
    | ⟨0, _⟩ => show win0_6.index t (0 : Fin 2) * 512 + 1 * n.val = n.val; omega
    | ⟨1, _⟩ => show win0_6.index t (1 : Fin 2) * 512 + 1 * k.val = k.val; omega
  have h8 : ∀ (n : Fin 512) (k : Fin 512), iblk m c 8 t (ix2 n k) = V m c main_arg8 (ix2 n k) := fun n k => by
    show V m c main_arg8 (((cfg0.win 8).blk t).view.emb (ix2 n k)) = _
    refine congrArg (V m c main_arg8) ?_
    funext a; apply Fin.ext
    match a with
    | ⟨0, _⟩ => show win0_8.index t (0 : Fin 2) * 512 + 1 * n.val = n.val; omega
    | ⟨1, _⟩ => show win0_8.index t (1 : Fin 2) * 512 + 1 * k.val = k.val; omega
  -- the bias rows are the bias arguments
  have h3 : ∀ n : Fin 1024, iblk m c 3 t (ix2 (0 : Fin 1) n) = m ((c : Thread nD τ).loc main_arg3) (ix1 n) := fun n => by
    show V m c main_v0 (((cfg0.win 3).blk t).view.emb (ix2 (0 : Fin 1) n)) = _
    have e : ((cfg0.win 3).blk t).view.emb (ix2 (0 : Fin 1) n) = ix2 (0 : Fin 1) n := by
      funext a; apply Fin.ext
      match a with
      | ⟨0, _⟩ => show win0_3.index t (0 : Fin 2) * 1 + 1 * 0 = 0; omega
      | ⟨1, _⟩ => show win0_3.index t (1 : Fin 2) * 1024 + 1 * n.val = n.val; omega
    rw [e, V_main_v0]
    exact shapeCast_a_1a_apply _ _ 0 n
  have h5 : ∀ n : Fin 1024, iblk m c 5 t (ix2 (0 : Fin 1) n) = m ((c : Thread nD τ).loc main_arg5) (ix1 n) := fun n => by
    show V m c main_v1 (((cfg0.win 5).blk t).view.emb (ix2 (0 : Fin 1) n)) = _
    have e : ((cfg0.win 5).blk t).view.emb (ix2 (0 : Fin 1) n) = ix2 (0 : Fin 1) n := by
      funext a; apply Fin.ext
      match a with
      | ⟨0, _⟩ => show win0_5.index t (0 : Fin 2) * 1 + 1 * 0 = 0; omega
      | ⟨1, _⟩ => show win0_5.index t (1 : Fin 2) * 1024 + 1 * n.val = n.val; omega
    rw [e, V_main_v1]
    exact shapeCast_a_1a_apply _ _ 0 n
  have h7 : ∀ n : Fin 512, iblk m c 7 t (ix2 (0 : Fin 1) n) = m ((c : Thread nD τ).loc main_arg7) (ix1 n) := fun n => by
    show V m c main_v2 (((cfg0.win 7).blk t).view.emb (ix2 (0 : Fin 1) n)) = _
    have e : ((cfg0.win 7).blk t).view.emb (ix2 (0 : Fin 1) n) = ix2 (0 : Fin 1) n := by
      funext a; apply Fin.ext
      match a with
      | ⟨0, _⟩ => show win0_7.index t (0 : Fin 2) * 1 + 1 * 0 = 0; omega
      | ⟨1, _⟩ => show win0_7.index t (1 : Fin 2) * 512 + 1 * n.val = n.val; omega
    rw [e, V_main_v2]
    exact shapeCast_a_1a_apply _ _ 0 n
  have h9 : ∀ n : Fin 512, iblk m c 9 t (ix2 (0 : Fin 1) n) = m ((c : Thread nD τ).loc main_arg9) (ix1 n) := fun n => by
    show V m c main_v3 (((cfg0.win 9).blk t).view.emb (ix2 (0 : Fin 1) n)) = _
    have e : ((cfg0.win 9).blk t).view.emb (ix2 (0 : Fin 1) n) = ix2 (0 : Fin 1) n := by
      funext a; apply Fin.ext
      match a with
      | ⟨0, _⟩ => show win0_9.index t (0 : Fin 2) * 1 + 1 * 0 = 0; omega
      | ⟨1, _⟩ => show win0_9.index t (1 : Fin 2) * 512 + 1 * n.val = n.val; omega
    rw [e, V_main_v3]
    exact shapeCast_a_1a_apply _ _ 0 n
  simp only [h0, h1, h2, h3, h4, h5, h6, h7, h8, h9]

/-! ## The blocks tile the result -/

theorem mem_blk (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v4).slice (win0_10.rect t)).set ↔ _
  rw [View.set_slice_whole, Rect.mem_set_unit]
  exact Iff.rfl

theorem cover (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  obtain ⟨t, ht⟩ := idx_onto ⟨(i 0).val / 512, by omega⟩
  have q0 : win0_10.index t (0 : Fin 2) = (i 0).val / 512 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

/-- The result array after the run. -/
theorem final (c : Dev nD) : (dats m 0 c).arrAt 10 cfg0.N
    = cell (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  rw [← V_main_arg0 m c, ← V_main_arg1 m c, ← V_main_arg2 m c, ← V_main_arg4 m c, ← V_main_arg6 m c, ← V_main_arg8 m c]
  exact (dats m 0 c).arrAt_eq_of_cover 10 _ (fun t _ => flushed_eq m c t) cover

/-! ## The run, read -/

theorem run : θ_run defs (onTc (τ := τ) (main (F := Ideal))) ⟨m, fun _ => 0, ρ⟩ fun r => ∀ c : Dev nD,
      r.2.mem ((c : Thread nD τ).loc main_v4)
        = cell (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7))
            (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.ArrValue

end
-- ==== Proof.RefRow.lean ====
/-
  The reference program read at one element of its result.

  The reference is a layer-normalised GRU cell written out operation by operation: four dense layers `a · Wᵀ + b`, each
  followed by a layer norm spelt `(a - mean a) / sqrt (var a + eps)` with the row statistics kept as a column, the
  logistic function spelt `1 / (1 + exp (-s))`, the two halves of the gates sliced off, and the new state
  `(1 - z) * h + z * tanh (LN C + r * LN D)`. Read at row `r` and column `q`, every stage depends only on row `r` of the
  two states and on the weights, and the whole is `gruRow` of those rows: the dense layers are `affine`, the column of
  means is `mean`, the column of variances plus epsilon is `varEps`, the quotient by the root is `lnDiv` and so `lnMul`,
  the expanded logistic is `gates`, the slices read columns `lo q` and `hi q`, and the last five operations are `blend`.
-/
import proofs.«136046_j4776003633435_1_alg».proof.Proof.Gen.ReferenceIdeal.Read
import proofs.«136046_j4776003633435_1_alg».proof.Proof.GruRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RowRead

open Cert.ReferenceIdeal Cert.ReferenceIdeal.Gen Cert.ReferenceIdeal.Read Idealize.ShloMosaic Idealize.ShloMosaic.ValueIdx Cert.GruRow

/-- An array of rank two of extended reals. -/
abbrev A2 (a b : Nat) := (⟨⟨2, ![a, b]⟩, .f32⟩ : BufTy).Contents (Elt Ideal)
/-- An array of rank one of extended reals. -/
abbrev A1 (a : Nat) := (⟨⟨1, ![a]⟩, .f32⟩ : BufTy).Contents (Elt Ideal)

/-! ## The four dense layers

  `x · Wᵀ + b` at row `r`, column `n`: the contraction reads `x` at `(r, k)` and the transposed weight at `(k, n)`,
  which is `W` at `(n, k)`; the bias is broadcast along the rows. -/

theorem dense_v4 (x0 : A2 16384 512) (x2 : A2 1024 512) (x3 : A1 1024) (r : Fin 16384) (n : Fin 1024) :
    val_main_v4 (F := Ideal) x0 x2 x3 (ix2 r n)
      = affine (fun k => x0 (ix2 r k)) (fun n k => x2 (ix2 n k)) (fun n => x3 (ix1 n)) n := by
  rw [val_main_v4_apply, val_main_v1_apply, val_main_v3_apply, val_main_v2_apply]
  unfold affine
  simp only [Ideal.addf_def]
  congr 1
  · refine Finset.sum_congr rfl fun k _ => ?_
    rw [val_main_v0_apply]
    congr 2 <;> exact funext fun a => Fin.ext (by match a with | ⟨0, _⟩ => rfl | ⟨1, _⟩ => rfl)
  · exact congrArg x3 (funext fun a => Fin.ext (by match a with | ⟨0, _⟩ => rfl))

theorem dense_v27 (x1 : A2 16384 512) (x4 : A2 1024 512) (x5 : A1 1024) (r : Fin 16384) (n : Fin 1024) :
    val_main_v27 (F := Ideal) x1 x4 x5 (ix2 r n)
      = affine (fun k => x1 (ix2 r k)) (fun n k => x4 (ix2 n k)) (fun n => x5 (ix1 n)) n := by
  rw [val_main_v27_apply, val_main_v24_apply, val_main_v26_apply, val_main_v25_apply]
  unfold affine
  simp only [Ideal.addf_def]
  congr 1
  · refine Finset.sum_congr rfl fun k _ => ?_
    rw [val_main_v23_apply]
    congr 2 <;> exact funext fun a => Fin.ext (by match a with | ⟨0, _⟩ => rfl | ⟨1, _⟩ => rfl)
  · exact congrArg x5 (funext fun a => Fin.ext (by match a with | ⟨0, _⟩ => rfl))

theorem dense_v59 (x0 : A2 16384 512) (x6 : A2 512 512) (x7 : A1 512) (r : Fin 16384) (n : Fin 512) :
    val_main_v59 (F := Ideal) x0 x6 x7 (ix2 r n)
      = affine (fun k => x0 (ix2 r k)) (fun n k => x6 (ix2 n k)) (fun n => x7 (ix1 n)) n := by
  rw [val_main_v59_apply, val_main_v56_apply, val_main_v58_apply, val_main_v57_apply]
  unfold affine
  simp only [Ideal.addf_def]
  congr 1
  · refine Finset.sum_congr rfl fun k _ => ?_
    rw [val_main_v55_apply]
    congr 2 <;> exact funext fun a => Fin.ext (by match a with | ⟨0, _⟩ => rfl | ⟨1, _⟩ => rfl)
  · exact congrArg x7 (funext fun a => Fin.ext (by match a with | ⟨0, _⟩ => rfl))

theorem dense_v82 (x1 : A2 16384 512) (x8 : A2 512 512) (x9 : A1 512) (r : Fin 16384) (n : Fin 512) :
    val_main_v82 (F := Ideal) x1 x8 x9 (ix2 r n)
      = affine (fun k => x1 (ix2 r k)) (fun n k => x8 (ix2 n k)) (fun n => x9 (ix1 n)) n := by
  rw [val_main_v82_apply, val_main_v79_apply, val_main_v81_apply, val_main_v80_apply]
  unfold affine
  simp only [Ideal.addf_def]
  congr 1
  · refine Finset.sum_congr rfl fun k _ => ?_
    rw [val_main_v78_apply]
    congr 2 <;> exact funext fun a => Fin.ext (by match a with | ⟨0, _⟩ => rfl | ⟨1, _⟩ => rfl)
  · exact congrArg x9 (funext fun a => Fin.ext (by match a with | ⟨0, _⟩ => rfl))

/-! ## The four layer norms

  Each is read in three steps over the dense layer's row `a = fun n' => (dense layer) (r, n')`: the kept-dimension column
  of means is `mean a` (the sum starts from the zero word), the column of variances plus epsilon is `varEps a`, and the
  quotient by the root is `lnDiv a n`, which is `lnMul a n` because the variance plus epsilon is positive. -/

/-! ### Layer norm of `x · W_i2hᵀ + b_i2h` (row length 1024) -/

theorem mean_v8 (x0 : A2 16384 512) (x2 : A2 1024 512) (x3 : A1 1024) (r : Fin 16384) (z : Fin 1) :
    val_main_v8 (F := Ideal) x0 x2 x3 (ix2 r z)
      = mean c1024 (fun n' => val_main_v4 (F := Ideal) x0 x2 x3 (ix2 r n')) := by
  rw [val_main_v8_apply, val_main_v6_apply, val_main_v5_apply, val_main_v7_apply, val_main_cst_0_apply,
    val_main_cst_apply]
  simp only [Ideal.hostDivf_def, Ideal.ofBits_def, Ideal.ofBits_zero_f32, zero_add]
  unfold mean
  congr 1
  refine Finset.sum_congr rfl fun k _ => ?_
  exact congrArg _ (funext fun a => Fin.ext (by match a with | ⟨0, _⟩ => rfl | ⟨1, _⟩ => rfl))

theorem var_v19 (x0 : A2 16384 512) (x2 : A2 1024 512) (x3 : A1 1024) (r : Fin 16384) (z : Fin 1) :
    val_main_v19 (F := Ideal) x0 x2 x3 (ix2 r z)
      = varEps c1024 ceps (fun n' => val_main_v4 (F := Ideal) x0 x2 x3 (ix2 r n')) := by
  rw [val_main_v19_apply, val_main_v15_apply, val_main_v13_apply, val_main_v12_apply, val_main_v14_apply,
    val_main_v18_apply, val_main_cst_2_apply, val_main_cst_3_apply, val_main_cst_1_apply]
  simp only [Ideal.hostDivf_def, Ideal.addf_def, Ideal.ofBits_def, Ideal.ofBits_zero_f32, zero_add]
  unfold varEps
  congr 2
  refine Finset.sum_congr rfl fun k _ => ?_
  rw [val_main_v11_apply, val_main_v10_apply, val_main_v9_apply]
  simp only [Ideal.mulf_def, Ideal.subf_def]
  have e1 : idx_main_v12 (idx_main_v13 (ix2 r z)) k = ix2 r k :=
    funext fun a => Fin.ext (by match a with | ⟨0, _⟩ => rfl | ⟨1, _⟩ => rfl)
  have e2 : idx_main_v9 (ix2 r k) = ix2 r (⟨0, Nat.one_pos⟩ : Fin 1) :=
    funext fun a => Fin.ext (by match a with | ⟨0, _⟩ => rfl | ⟨1, _⟩ => rfl)
  rw [e1, e2, mean_v8]

theorem ln_v22 (x0 : A2 16384 512) (x2 : A2 1024 512) (x3 : A1 1024) (r : Fin 16384) (n : Fin 1024) :
    val_main_v22 (F := Ideal) x0 x2 x3 (ix2 r n)
      = lnMul c1024 ceps (affine (fun k => x0 (ix2 r k)) (fun n k => x2 (ix2 n k)) (fun n => x3 (ix1 n))) n := by
  have e1 : idx_main_v16 (ix2 r n) = ix2 r (⟨0, Nat.one_pos⟩ : Fin 1) :=
    funext fun a => Fin.ext (by match a with | ⟨0, _⟩ => rfl | ⟨1, _⟩ => rfl)
  have e2 : idx_main_v21 (ix2 r n) = ix2 r (⟨0, Nat.one_pos⟩ : Fin 1) :=
    funext fun a => Fin.ext (by match a with | ⟨0, _⟩ => rfl | ⟨1, _⟩ => rfl)
  have ea : (fun n' => val_main_v4 (F := Ideal) x0 x2 x3 (ix2 r n'))
      = affine (fun k => x0 (ix2 r k)) (fun n k => x2 (ix2 n k)) (fun n => x3 (ix1 n)) :=
    funext fun n' => dense_v4 x0 x2 x3 r n'
  rw [val_main_v22_apply, val_main_v17_apply, val_main_v16_apply, val_main_v21_apply, val_main_v20_apply,
    e1, e2, mean_v8, var_v19, ← lnDiv_eq_lnMul_1024, ← ea]
  rfl

/-! ### Layer norm of `h · W_h2hᵀ + b_h2h` (row length 1024) -/

theorem mean_v31 (x1 : A2 16384 512) (x4 : A2 1024 512) (x5 : A1 1024) (r : Fin 16384) (z : Fin 1) :
    val_main_v31 (F := Ideal) x1 x4 x5 (ix2 r z)
      = mean c1024 (fun n' => val_main_v27 (F := Ideal) x1 x4 x5 (ix2 r n')) := by
  rw [val_main_v31_apply, val_main_v29_apply, val_main_v28_apply, val_main_v30_apply, val_main_cst_5_apply,
    val_main_cst_4_apply]
  simp only [Ideal.hostDivf_def, Ideal.ofBits_def, Ideal.ofBits_zero_f32, zero_add]
  unfold mean
  congr 1
  refine Finset.sum_congr rfl fun k _ => ?_
  exact congrArg _ (funext fun a => Fin.ext (by match a with | ⟨0, _⟩ => rfl | ⟨1, _⟩ => rfl))

theorem var_v42 (x1 : A2 16384 512) (x4 : A2 1024 512) (x5 : A1 1024) (r : Fin 16384) (z : Fin 1) :
    val_main_v42 (F := Ideal) x1 x4 x5 (ix2 r z)
      = varEps c1024 ceps (fun n' => val_main_v27 (F := Ideal) x1 x4 x5 (ix2 r n')) := by
  rw [val_main_v42_apply, val_main_v38_apply, val_main_v36_apply, val_main_v35_apply, val_main_v37_apply,
    val_main_v41_apply, val_main_cst_7_apply, val_main_cst_8_apply, val_main_cst_6_apply]
  simp only [Ideal.hostDivf_def, Ideal.addf_def, Ideal.ofBits_def, Ideal.ofBits_zero_f32, zero_add]
  unfold varEps
  congr 2
  refine Finset.sum_congr rfl fun k _ => ?_
  rw [val_main_v34_apply, val_main_v33_apply, val_main_v32_apply]
  simp only [Ideal.mulf_def, Ideal.subf_def]
  have e1 : idx_main_v35 (idx_main_v36 (ix2 r z)) k = ix2 r k :=
    funext fun a => Fin.ext (by match a with | ⟨0, _⟩ => rfl | ⟨1, _⟩ => rfl)
  have e2 : idx_main_v32 (ix2 r k) = ix2 r (⟨0, Nat.one_pos⟩ : Fin 1) :=
    funext fun a => Fin.ext (by match a with | ⟨0, _⟩ => rfl | ⟨1, _⟩ => rfl)
  rw [e1, e2, mean_v31]

theorem ln_v45 (x1 : A2 16384 512) (x4 : A2 1024 512) (x5 : A1 1024) (r : Fin 16384) (n : Fin 1024) :
    val_main_v45 (F := Ideal) x1 x4 x5 (ix2 r n)
      = lnMul c1024 ceps (affine (fun k => x1 (ix2 r k)) (fun n k => x4 (ix2 n k)) (fun n => x5 (ix1 n))) n := by
  have e1 : idx_main_v39 (ix2 r n) = ix2 r (⟨0, Nat.one_pos⟩ : Fin 1) :=
    funext fun a => Fin.ext (by match a with | ⟨0, _⟩ => rfl | ⟨1, _⟩ => rfl)
  have e2 : idx_main_v44 (ix2 r n) = ix2 r (⟨0, Nat.one_pos⟩ : Fin 1) :=
    funext fun a => Fin.ext (by match a with | ⟨0, _⟩ => rfl | ⟨1, _⟩ => rfl)
  have ea : (fun n' => val_main_v27 (F := Ideal) x1 x4 x5 (ix2 r n'))
      = affine (fun k => x1 (ix2 r k)) (fun n k => x4 (ix2 n k)) (fun n => x5 (ix1 n)) :=
    funext fun n' => dense_v27 x1 x4 x5 r n'
  rw [val_main_v45_apply, val_main_v40_apply, val_main_v39_apply, val_main_v44_apply, val_main_v43_apply,
    e1, e2, mean_v31, var_v42, ← lnDiv_eq_lnMul_1024, ← ea]
  rfl

/-! ### Layer norm of `x · W_hatWᵀ + b_hatW` (row length 512) -/

theorem mean_v63 (x0 : A2 16384 512) (x6 : A2 512 512) (x7 : A1 512) (r : Fin 16384) (z : Fin 1) :
    val_main_v63 (F := Ideal) x0 x6 x7 (ix2 r z)
      = mean c512 (fun n' => val_main_v59 (F := Ideal) x0 x6 x7 (ix2 r n')) := by
  rw [val_main_v63_apply, val_main_v61_apply, val_main_v60_apply, val_main_v62_apply, val_main_cst_12_apply,
    val_main_cst_11_apply]
  simp only [Ideal.hostDivf_def, Ideal.ofBits_def, Ideal.ofBits_zero_f32, zero_add]
  unfold mean
  congr 1
  refine Finset.sum_congr rfl fun k _ => ?_
  exact congrArg _ (funext fun a => Fin.ext (by match a with | ⟨0, _⟩ => rfl | ⟨1, _⟩ => rfl))

theorem var_v74 (x0 : A2 16384 512) (x6 : A2 512 512) (x7 : A1 512) (r : Fin 16384) (z : Fin 1) :
    val_main_v74 (F := Ideal) x0 x6 x7 (ix2 r z)
      = varEps c512 ceps (fun n' => val_main_v59 (F := Ideal) x0 x6 x7 (ix2 r n')) := by
  rw [val_main_v74_apply, val_main_v70_apply, val_main_v68_apply, val_main_v67_apply, val_main_v69_apply,
    val_main_v73_apply, val_main_cst_14_apply, val_main_cst_15_apply, val_main_cst_13_apply]
  simp only [Ideal.hostDivf_def, Ideal.addf_def, Ideal.ofBits_def, Ideal.ofBits_zero_f32, zero_add]
  unfold varEps
  congr 2
  refine Finset.sum_congr rfl fun k _ => ?_
  rw [val_main_v66_apply, val_main_v65_apply, val_main_v64_apply]
  simp only [Ideal.mulf_def, Ideal.subf_def]
  have e1 : idx_main_v67 (idx_main_v68 (ix2 r z)) k = ix2 r k :=
    funext fun a => Fin.ext (by match a with | ⟨0, _⟩ => rfl | ⟨1, _⟩ => rfl)
  have e2 : idx_main_v64 (ix2 r k) = ix2 r (⟨0, Nat.one_pos⟩ : Fin 1) :=
    funext fun a => Fin.ext (by match a with | ⟨0, _⟩ => rfl | ⟨1, _⟩ => rfl)
  rw [e1, e2, mean_v63]

theorem ln_v77 (x0 : A2 16384 512) (x6 : A2 512 512) (x7 : A1 512) (r : Fin 16384) (n : Fin 512) :
    val_main_v77 (F := Ideal) x0 x6 x7 (ix2 r n)
      = lnMul c512 ceps (affine (fun k => x0 (ix2 r k)) (fun n k => x6 (ix2 n k)) (fun n => x7 (ix1 n))) n := by
  have e1 : idx_main_v71 (ix2 r n) = ix2 r (⟨0, Nat.one_pos⟩ : Fin 1) :=
    funext fun a => Fin.ext (by match a with | ⟨0, _⟩ => rfl | ⟨1, _⟩ => rfl)
  have e2 : idx_main_v76 (ix2 r n) = ix2 r (⟨0, Nat.one_pos⟩ : Fin 1) :=
    funext fun a => Fin.ext (by match a with | ⟨0, _⟩ => rfl | ⟨1, _⟩ => rfl)
  have ea : (fun n' => val_main_v59 (F := Ideal) x0 x6 x7 (ix2 r n'))
      = affine (fun k => x0 (ix2 r k)) (fun n k => x6 (ix2 n k)) (fun n => x7 (ix1 n)) :=
    funext fun n' => dense_v59 x0 x6 x7 r n'
  rw [val_main_v77_apply, val_main_v72_apply, val_main_v71_apply, val_main_v76_apply, val_main_v75_apply,
    e1, e2, mean_v63, var_v74, ← lnDiv_eq_lnMul_512, ← ea]
  rfl

/-! ### Layer norm of `h · W_hatUᵀ + b_hatU` (row length 512) -/

theorem mean_v86 (x1 : A2 16384 512) (x8 : A2 512 512) (x9 : A1 512) (r : Fin 16384) (z : Fin 1) :
    val_main_v86 (F := Ideal) x1 x8 x9 (ix2 r z)
      = mean c512 (fun n' => val_main_v82 (F := Ideal) x1 x8 x9 (ix2 r n')) := by
  rw [val_main_v86_apply, val_main_v84_apply, val_main_v83_apply, val_main_v85_apply, val_main_cst_17_apply,
    val_main_cst_16_apply]
  simp only [Ideal.hostDivf_def, Ideal.ofBits_def, Ideal.ofBits_zero_f32, zero_add]
  unfold mean
  congr 1
  refine Finset.sum_congr rfl fun k _ => ?_
  exact congrArg _ (funext fun a => Fin.ext (by match a with | ⟨0, _⟩ => rfl | ⟨1, _⟩ => rfl))

theorem var_v97 (x1 : A2 16384 512) (x8 : A2 512 512) (x9 : A1 512) (r : Fin 16384) (z : Fin 1) :
    val_main_v97 (F := Ideal) x1 x8 x9 (ix2 r z)
      = varEps c512 ceps (fun n' => val_main_v82 (F := Ideal) x1 x8 x9 (ix2 r n')) := by
  rw [val_main_v97_apply, val_main_v93_apply, val_main_v91_apply, val_main_v90_apply, val_main_v92_apply,
    val_main_v96_apply, val_main_cst_19_apply, val_main_cst_20_apply, val_main_cst_18_apply]
  simp only [Ideal.hostDivf_def, Ideal.addf_def, Ideal.ofBits_def, Ideal.ofBits_zero_f32, zero_add]
  unfold varEps
  congr 2
  refine Finset.sum_congr rfl fun k _ => ?_
  rw [val_main_v89_apply, val_main_v88_apply, val_main_v87_apply]
  simp only [Ideal.mulf_def, Ideal.subf_def]
  have e1 : idx_main_v90 (idx_main_v91 (ix2 r z)) k = ix2 r k :=
    funext fun a => Fin.ext (by match a with | ⟨0, _⟩ => rfl | ⟨1, _⟩ => rfl)
  have e2 : idx_main_v87 (ix2 r k) = ix2 r (⟨0, Nat.one_pos⟩ : Fin 1) :=
    funext fun a => Fin.ext (by match a with | ⟨0, _⟩ => rfl | ⟨1, _⟩ => rfl)
  rw [e1, e2, mean_v86]

theorem ln_v100 (x1 : A2 16384 512) (x8 : A2 512 512) (x9 : A1 512) (r : Fin 16384) (n : Fin 512) :
    val_main_v100 (F := Ideal) x1 x8 x9 (ix2 r n)
      = lnMul c512 ceps (affine (fun k => x1 (ix2 r k)) (fun n k => x8 (ix2 n k)) (fun n => x9 (ix1 n))) n := by
  have e1 : idx_main_v94 (ix2 r n) = ix2 r (⟨0, Nat.one_pos⟩ : Fin 1) :=
    funext fun a => Fin.ext (by match a with | ⟨0, _⟩ => rfl | ⟨1, _⟩ => rfl)
  have e2 : idx_main_v99 (ix2 r n) = ix2 r (⟨0, Nat.one_pos⟩ : Fin 1) :=
    funext fun a => Fin.ext (by match a with | ⟨0, _⟩ => rfl | ⟨1, _⟩ => rfl)
  have ea : (fun n' => val_main_v82 (F := Ideal) x1 x8 x9 (ix2 r n'))
      = affine (fun k => x1 (ix2 r k)) (fun n k => x8 (ix2 n k)) (fun n => x9 (ix1 n)) :=
    funext fun n' => dense_v82 x1 x8 x9 r n'
  rw [val_main_v100_apply, val_main_v95_apply, val_main_v94_apply, val_main_v99_apply, val_main_v98_apply,
    e1, e2, mean_v86, var_v97, ← lnDiv_eq_lnMul_512, ← ea]
  rfl

/-! ## The gates

  The host spells the logistic function as `1 / (1 + exp (-s))` with both ones the literal one; at the sum `s` of the two
  normalised rows that is `gates`. The update gate is its first 512 columns, the reset gate its last 512. -/

theorem gates_v52 (x0 x1 : A2 16384 512) (x2 : A2 1024 512) (x3 : A1 1024) (x4 : A2 1024 512) (x5 : A1 1024)
    (r : Fin 16384) (n : Fin 1024) :
    val_main_v52 (F := Ideal) x0 x1 x2 x3 x4 x5 (ix2 r n)
      = gates (fun k => x0 (ix2 r k)) (fun k => x1 (ix2 r k)) (fun n k => x2 (ix2 n k)) (fun n k => x4 (ix2 n k))
          (fun n => x3 (ix1 n)) (fun n => x5 (ix1 n)) n := by
  rw [val_main_v52_apply, val_main_v51_apply, val_main_cst_10_apply, val_main_v50_apply, val_main_v49_apply,
    val_main_cst_9_apply, val_main_v48_apply, val_main_v47_apply, val_main_v46_apply, ln_v22, ln_v45]
  simp only [Ideal.hostDivf_def, Ideal.addf_def, Ideal.ofBits_def, Ideal.hostUnary_exp_def, Ideal.hostNegf_def,
    Ideal.negf_def]
  unfold gates
  exact logistic_expand _

theorem update_v53 (x0 x1 : A2 16384 512) (x2 : A2 1024 512) (x3 : A1 1024) (x4 : A2 1024 512) (x5 : A1 1024)
    (r : Fin 16384) (q : Fin 512) :
    val_main_v53 (F := Ideal) x0 x1 x2 x3 x4 x5 (ix2 r q)
      = gates (fun k => x0 (ix2 r k)) (fun k => x1 (ix2 r k)) (fun n k => x2 (ix2 n k)) (fun n k => x4 (ix2 n k))
          (fun n => x3 (ix1 n)) (fun n => x5 (ix1 n)) (lo q) := by
  have e : idx_main_v53 (ix2 r q) = ix2 r (lo q) :=
    funext fun a => Fin.ext (by match a with | ⟨0, _⟩ => rfl | ⟨1, _⟩ => rfl)
  rw [val_main_v53_apply, e, gates_v52]

theorem reset_v54 (x0 x1 : A2 16384 512) (x2 : A2 1024 512) (x3 : A1 1024) (x4 : A2 1024 512) (x5 : A1 1024)
    (r : Fin 16384) (q : Fin 512) :
    val_main_v54 (F := Ideal) x0 x1 x2 x3 x4 x5 (ix2 r q)
      = gates (fun k => x0 (ix2 r k)) (fun k => x1 (ix2 r k)) (fun n k => x2 (ix2 n k)) (fun n k => x4 (ix2 n k))
          (fun n => x3 (ix1 n)) (fun n => x5 (ix1 n)) (hi q) := by
  have e : idx_main_v54 (ix2 r q) = ix2 r (hi q) :=
    funext fun a => Fin.ext (by match a with | ⟨0, _⟩ => rfl | ⟨1, _⟩ => rfl)
  rw [val_main_v54_apply, e, gates_v52]

/-! ## The new state -/

/-- The reference's result at row `r`, column `q`, is the cell's row built from the two states' rows at `r`. -/
theorem result_apply
    (x0 x1 : (⟨S16384x512, .f32⟩ : BufTy).Contents (Elt Ideal)) (x2 : (⟨S1024x512, .f32⟩ : BufTy).Contents (Elt Ideal)) (x3 : (⟨S1024, .f32⟩ : BufTy).Contents (Elt Ideal))
    (x4 : (⟨S1024x512, .f32⟩ : BufTy).Contents (Elt Ideal)) (x5 : (⟨S1024, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (r : Fin 16384) (q : Fin 512) :
    val_main_v108 (F := Ideal) x0 x1 x2 x3 x4 x5 x6 x7 x8 x9 (ix2 r q)
      = gruRow (fun k => x0 (ix2 r k)) (fun k => x1 (ix2 r k))
          (fun n k => x2 (ix2 n k)) (fun n k => x4 (ix2 n k)) (fun n => x3 (ix1 n)) (fun n => x5 (ix1 n))
          (fun n k => x6 (ix2 n k)) (fun n k => x8 (ix2 n k)) (fun n => x7 (ix1 n)) (fun n => x9 (ix1 n)) q := by
  rw [val_main_v108_apply, val_main_v106_apply, val_main_v107_apply, val_main_v105_apply, val_main_v104_apply,
    val_main_cst_21_apply, val_main_v103_apply, val_main_v102_apply, val_main_v101_apply,
    update_v53 x0 x1 x2 x3 x4 x5 r q, reset_v54 x0 x1 x2 x3 x4 x5 r q, ln_v77 x0 x6 x7 r q, ln_v100 x1 x8 x9 r q]
  simp only [Ideal.addf_def, Ideal.mulf_def, Ideal.subf_def, Ideal.ofBits_def, Ideal.hostUnary_tanh_def]
  rfl

end Cert.ReferenceIdeal.RowRead

end
-- ==== Proof.RefCell.lean ====
/-
  The reference's result, as a whole array, is the cell of its argument arrays: every entry `(r, q)` of the last
  stage is the row function of row `r`, which is what `cell` holds there.
-/
import proofs.«136046_j4776003633435_1_alg».proof.Proof.RefRow
import proofs.«136046_j4776003633435_1_alg».proof.Proof.GruCell

noncomputable section

namespace Cert.ReferenceIdeal.RowRead

open Cert.ReferenceIdeal Cert.ReferenceIdeal.Gen Cert.ReferenceIdeal.Read Idealize.ShloMosaic Idealize.ShloMosaic.ValueIdx Cert.GruRow

theorem result_eq
    (x0 x1 : (⟨S16384x512, .f32⟩ : BufTy).Contents (Elt Ideal)) (x2 : (⟨S1024x512, .f32⟩ : BufTy).Contents (Elt Ideal)) (x3 : (⟨S1024, .f32⟩ : BufTy).Contents (Elt Ideal))
    (x4 : (⟨S1024x512, .f32⟩ : BufTy).Contents (Elt Ideal)) (x5 : (⟨S1024, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal)) :
    val_main_v108 (F := Ideal) x0 x1 x2 x3 x4 x5 x6 x7 x8 x9 = cell x0 x1 x2 x3 x4 x5 x6 x7 x8 x9 := by
  funext i
  obtain ⟨r, q, rfl⟩ : ∃ (r : Fin 16384) (q : Fin 512), i = ix2 r q := ⟨i 0, i 1, eq_ix2 i⟩
  exact (result_apply x0 x1 x2 x3 x4 x5 x6 x7 x8 x9 r q).trans (cell_apply x0 x1 x2 x3 x4 x5 x6 x7 x8 x9 r q).symm

end Cert.ReferenceIdeal.RowRead

end
-- ==== Proof.lean ====
/-
  A layer-normalised GRU cell, B = 16384 rows, I = H = 512: the kernel against the plain reference, over the extended reals.

  Both programs compute, row by row,
      A = x·Wiᵀ + bi,  B = h·Whᵀ + bh   (width 2H),      C = x·WWᵀ + bW,  D = h·WUᵀ + bU   (width H),
      g = logistic (LN A + LN B),  z = g[:H],  r = g[H:],   out = (1 − z)·h + z·tanh (LN C + r·LN D),
  where LN subtracts the row mean and scales by the inverse root of variance plus epsilon. The kernel works on 32
  blocks of 512 rows, contracts both matrix operands along their second axis (bf16 casts are the identity here),
  spells the scaling as a product with the reciprocal root and the gate as the logistic function; the reference
  transposes the weights first, divides by the root, and spells the gate as 1 / (1 + exp (−·)). The sums are the same sums
  (only re-indexed), the logistic function IS that quotient, and the two scalings agree because a mean of squares plus a
  positive epsilon is never ≤ 0 (Proof/GruRow.lean). So no finiteness of the inputs is used.

  Proof/GruRow.lean      the row mathematics and the one law (product with the reciprocal root = quotient by the root above zero)
  Proof/GruCell.lean     the result array as one function `cell` of the argument arrays
  Proof/KernelRow.lean   the kernel's stored block at (p, q) is the row function of row p of its blocks
  Proof/KernelValue.lean block t of the result is block t of `cell`; the blocks tile it; the kernel's run ends at `cell`
  Proof/RefRow.lean      the reference's last stage at (r, q) is the row function of row r
  Proof/RefCell.lean     so the reference's result is `cell`
-/
import proofs.«136046_j4776003633435_1_alg».proof.Defs
import proofs.«136046_j4776003633435_1_alg».proof.Proof.Gen.Kernel
import proofs.«136046_j4776003633435_1_alg».proof.Proof.Gen.Kernel.Skeleton
import proofs.«136046_j4776003633435_1_alg».proof.Proof.Gen.Kernel.Launch
import proofs.«136046_j4776003633435_1_alg».proof.Proof.Gen.Kernel.Points
import proofs.«136046_j4776003633435_1_alg».proof.Proof.Gen.Kernel.Frame
import proofs.«136046_j4776003633435_1_alg».proof.Proof.Gen.KernelIdeal
import proofs.«136046_j4776003633435_1_alg».proof.Proof.Gen.KernelIdeal.Skeleton
import proofs.«136046_j4776003633435_1_alg».proof.Proof.Gen.KernelIdeal.Launch
import proofs.«136046_j4776003633435_1_alg».proof.Proof.Gen.KernelIdeal.Points
import proofs.«136046_j4776003633435_1_alg».proof.Proof.Gen.KernelIdeal.Frame
import proofs.«136046_j4776003633435_1_alg».proof.Proof.Gen.ReferenceIdeal
import proofs.«136046_j4776003633435_1_alg».proof.Proof.Gen.Pre_finite_inputs
import proofs.«136046_j4776003633435_1_alg».proof.Proof.Gen.KernelIdeal.Value
import proofs.«136046_j4776003633435_1_alg».proof.Proof.Gen.ReferenceIdeal.Run
import proofs.«136046_j4776003633435_1_alg».proof.Proof.Gen.ReferenceIdeal.Read
import proofs.«136046_j4776003633435_1_alg».proof.Proof.KernelValue
import proofs.«136046_j4776003633435_1_alg».proof.Proof.RefCell
import Idealize.ShloMosaic.Adequacy
import Idealize.ShloMosaic.Init

noncomputable section

namespace Cert.Proof

open Idealize.ShloMosaic Idealize.SL.Sem

/-- The kernel as printed runs and leaves its arguments: its generated frame. -/
theorem frame_k : Cert.frame_Kernel := fun m ρ _ => Cert.Kernel.Gen.frame m ρ

/-- The same of the kernel read over the extended reals. -/
theorem frame_ki : Cert.frame_KernelIdeal := fun m ρ _ => Cert.KernelIdeal.Gen.frame m ρ

/-- The reference is a list of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at `cell` of the argument arrays, which agree. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.ReferenceIdeal.RowRead.result_eq _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
